-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x2 : Shape := ⟨3, ![64, 2048, 2]⟩
abbrev S64x2048 : Shape := ⟨2, ![64, 2048]⟩
abbrev S128x2 : Shape := ⟨2, ![128, 2]⟩
abbrev S_ : Shape := ⟨0, ![]⟩

class Facts : Prop where
  bcast_S_S64x2048x2 : S_.BroadcastsInDim S64x2048x2 (![] : Fin 0 → Fin S64x2048x2.rank)
  reducesTo_S64x2048x2_S_d0_1_2 : S64x2048x2.ReducesTo [0, 1, 2] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S128x2 : S_.BroadcastsInDim S128x2 (![] : Fin 0 → Fin S128x2.rank)
  reducesTo_S128x2_S_d0_1 : S128x2.ReducesTo [0, 1] S_

variable [Facts]

def fn_part1 {F : FTy → Type} [FloatOps F] (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  main_v18

def fn {F : FTy → Type} [FloatOps F] (main_arg0 : FVec F S64x2048x2 .f32) (main_arg1 : FVec F S64x2048 .f32) (main_arg2 : FVec F S128x2 .f32) (main_arg3 : FVec F S128x2 .f32) : IVec S_ 1 :=
  let main_v0 : FVec F S64x2048x2 .f32 := Host.absf main_arg0
  let main_cst : FVec F S_ .f32 := constant S_ .f32 0x7F800000#32
  let main_v1 : FVec F S64x2048x2 .f32 := broadcastInDim S64x2048x2 ![] bcast_S_S64x2048x2 main_cst
  let main_v2 : IVec S64x2048x2 1 := cmpf .olt main_v0 main_v1
  let main_c : IVec S_ 1 := constantI S_ 1 1#1
  let main_v3 : IVec S_ 1 := (fun x v => Host.reduce IntOp.andi x v reducesTo_S64x2048x2_S_d0_1_2 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S128x2 .f32 := Host.absf main_arg2
  let main_cst_2 : FVec F S_ .f32 := constant S_ .f32 0x7F800000#32
  let main_v10 : FVec F S128x2 .f32 := broadcastInDim S128x2 ![] bcast_S_S128x2 main_cst_2
  let main_v11 : IVec S128x2 1 := cmpf .olt main_v9 main_v10
  let main_c_3 : IVec S_ 1 := constantI S_ 1 1#1
  let main_v12 : IVec S_ 1 := (fun x v => Host.reduce IntOp.andi x v reducesTo_S128x2_S_d0_1 h_S_) main_v11 main_c_3
  let main_v13 : IVec S_ 1 := andi main_v8 main_v12
  let main_v14 : FVec F S128x2 .f32 := Host.absf main_arg3
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_v13 main_v16
-- ==== Kernel.lean ====
abbrev S64x2048x2 : Shape := ⟨3, ![64, 2048, 2]⟩
abbrev S64x2048 : Shape := ⟨2, ![64, 2048]⟩
abbrev S128x2 : Shape := ⟨2, ![128, 2]⟩
abbrev S64x2048x1 : Shape := ⟨3, ![64, 2048, 1]⟩
abbrev S128x1 : Shape := ⟨2, ![128, 1]⟩
abbrev S128 : Shape := ⟨1, ![128]⟩
abbrev S1x128 : Shape := ⟨2, ![1, 128]⟩
abbrev S64x128 : Shape := ⟨2, ![64, 128]⟩
abbrev S32x256 : Shape := ⟨2, ![32, 256]⟩
abbrev S32x128 : Shape := ⟨2, ![32, 128]⟩
abbrev S32x1x256 : Shape := ⟨3, ![32, 1, 256]⟩
abbrev S1x128x1 : Shape := ⟨3, ![1, 128, 1]⟩
abbrev S32x128x256 : Shape := ⟨3, ![32, 128, 256]⟩

abbrev nBuf : Space → Nat
  | .hbm => 21
  | .vmem => 13
  | .smem => 0
  | _ => 0

abbrev bufTy : (tb : Table) → Fin (tcTables nBuf tb) → BufTy
  | .hbm, ⟨0, _⟩ => ⟨S64x2048x2, .f32⟩
  | .hbm, ⟨1, _⟩ => ⟨S64x2048, .f32⟩
  | .hbm, ⟨2, _⟩ => ⟨S128x2, .f32⟩
  | .hbm, ⟨3, _⟩ => ⟨S128x2, .f32⟩
  | .hbm, ⟨4, _⟩ => ⟨S64x2048x1, .f32⟩
  | .hbm, ⟨5, _⟩ => ⟨S64x2048, .f32⟩
  | .hbm, ⟨6, _⟩ => ⟨S64x2048x1, .f32⟩
  | .hbm, ⟨7, _⟩ => ⟨S64x2048, .f32⟩
  | .hbm, ⟨8, _⟩ => ⟨S128x1, .f32⟩
  | .hbm, ⟨9, _⟩ => ⟨S128, .f32⟩
  | .hbm, ⟨10, _⟩ => ⟨S1x128, .f32⟩
  | .hbm, ⟨11, _⟩ => ⟨S128x1, .f32⟩
  | .hbm, ⟨12, _⟩ => ⟨S128, .f32⟩
  | .hbm, ⟨13, _⟩ => ⟨S1x128, .f32⟩
  | .hbm, ⟨14, _⟩ => ⟨S128x1, .f32⟩
  | .hbm, ⟨15, _⟩ => ⟨S128, .f32⟩
  | .hbm, ⟨16, _⟩ => ⟨S1x128, .f32⟩
  | .hbm, ⟨17, _⟩ => ⟨S128x1, .f32⟩
  | .hbm, ⟨18, _⟩ => ⟨S128, .f32⟩
  | .hbm, ⟨19, _⟩ => ⟨S1x128, .f32⟩
  | .hbm, ⟨20, _⟩ => ⟨S64x128, .f32⟩
  | .local _ .vmem, ⟨0, _⟩ => ⟨S32x256, .f32⟩
  | .local _ .vmem, ⟨1, _⟩ => ⟨S32x256, .f32⟩
  | .local _ .vmem, ⟨2, _⟩ => ⟨S32x256, .f32⟩
  | .local _ .vmem, ⟨3, _⟩ => ⟨S32x256, .f32⟩
  | .local _ .vmem, ⟨4, _⟩ => ⟨S32x256, .f32⟩
  | .local _ .vmem, ⟨5, _⟩ => ⟨S32x256, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | _, _ => ⟨S64x2048x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_19 : BitVec 32 := 0#32
  let v49 : BitVec 1 := Scalar.cmpi .ne v48 c0_i32_19
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  slices_S64x2048x2_S64x2048x1_0_0_0 : S64x2048x2.Slices ![0, 0, 0] S64x2048x1
  shapeCasts_S64x2048x1_S64x2048 : S64x2048x1.ShapeCasts S64x2048
  slices_S64x2048x2_S64x2048x1_0_0_1 : S64x2048x2.Slices ![0, 0, 1] S64x2048x1
  slices_S128x2_S128x1_0_0 : S128x2.Slices ![0, 0] S128x1
  shapeCasts_S128x1_S128 : S128x1.ShapeCasts S128
  shapeCasts_S128_S1x128 : S128.ShapeCasts S1x128
  slices_S128x2_S128x1_0_1 : S128x2.Slices ![0, 1] S128x1
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S32x256_S32x1x256 : S32x256.ShapeCasts S32x1x256
  shapeCasts_S1x128_S1x128x1 : S1x128.ShapeCasts S1x128x1
  broadcasts_S1x128x1_S32x128x256 : S1x128x1.Broadcasts S32x128x256
  broadcasts_S32x1x256_S32x128x256 : S32x1x256.Broadcasts S32x128x256
  reduces_S32x128x256_S32x128 : S32x128x256.Reduces [2] S32x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S64x2048.size a
  hwx0_0 : ∀ i : grid0.Coords, EltTy.bits .f32 = 32 ∨ (Rect.block (s := S64x2048) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S64x2048.size a
  hwx0_1 : ∀ i : grid0.Coords, EltTy.bits .f32 = 32 ∨ (Rect.block (s := S64x2048) S32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S64x2048.size a
  hwx0_2 : ∀ i : grid0.Coords, EltTy.bits .f32 = 32 ∨ (Rect.block (s := S64x2048) S32x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x128.size a ≤ S64x128.size a
  hwx0_7 : ∀ i : grid0.Coords, EltTy.bits .f32 = 32 ∨ (Rect.block (s := S64x128) S32x128.size (cc0_transform_7 i) (hinb0_7 i)).WholeWords (EltTy.packing .f32)

variable [Facts₀]

abbrev win0_0 : Pipeline.Window sig grid0 :=
  Pipeline.Window.ofSpec (Memref.whole main_v1) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S32x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S32x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S64x2048x2 : Shape := ⟨3, ![64, 2048, 2]⟩
abbrev S64x2048 : Shape := ⟨2, ![64, 2048]⟩
abbrev S128x2 : Shape := ⟨2, ![128, 2]⟩
abbrev S1x128x1x2 : Shape := ⟨4, ![1, 128, 1, 2]⟩
abbrev S64x1x2048x2 : Shape := ⟨4, ![64, 1, 2048, 2]⟩
abbrev S64x128x2048x2 : Shape := ⟨4, ![64, 128, 2048, 2]⟩
abbrev S_ : Shape := ⟨0, ![]⟩
abbrev S64x128x2048 : Shape := ⟨3, ![64, 128, 2048]⟩
abbrev S64x1x2048 : Shape := ⟨3, ![64, 1, 2048]⟩
abbrev S64x128 : Shape := ⟨2, ![64, 128]⟩

abbrev nBuf : Space → Nat
  | .hbm => 22
  | .vmem => 0
  | .smem => 0
  | _ => 0

abbrev bufTy : (tb : Table) → Fin (tcTables nBuf tb) → BufTy
  | .hbm, ⟨0, _⟩ => ⟨S64x2048x2, .f32⟩
  | .hbm, ⟨1, _⟩ => ⟨S64x2048, .f32⟩
  | .hbm, ⟨2, _⟩ => ⟨S128x2, .f32⟩
  | .hbm, ⟨3, _⟩ => ⟨S128x2, .f32⟩
  | .hbm, ⟨4, _⟩ => ⟨S1x128x1x2, .f32⟩
  | .hbm, ⟨5, _⟩ => ⟨S64x1x2048x2, .f32⟩
  | .hbm, ⟨6, _⟩ => ⟨S64x128x2048x2, .f32⟩
  | .hbm, ⟨7, _⟩ => ⟨S64x128x2048x2, .f32⟩
  | .hbm, ⟨8, _⟩ => ⟨S64x128x2048x2, .f32⟩
  | .hbm, ⟨9, _⟩ => ⟨S1x128x1x2, .f32⟩
  | .hbm, ⟨10, _⟩ => ⟨S64x128x2048x2, .f32⟩
  | .hbm, ⟨11, _⟩ => ⟨S64x128x2048x2, .f32⟩
  | .hbm, ⟨12, _⟩ => ⟨S64x128x2048x2, .f32⟩
  | .hbm, ⟨13, _⟩ => ⟨S_, .f32⟩
  | .hbm, ⟨14, _⟩ => ⟨S64x128x2048, .f32⟩
  | .hbm, ⟨15, _⟩ => ⟨S64x128x2048, .f32⟩
  | .hbm, ⟨16, _⟩ => ⟨S64x128x2048, .f32⟩
  | .hbm, ⟨17, _⟩ => ⟨S64x1x2048, .f32⟩
  | .hbm, ⟨18, _⟩ => ⟨S64x128x2048, .f32⟩
  | .hbm, ⟨19, _⟩ => ⟨S64x128x2048, .f32⟩
  | .hbm, ⟨20, _⟩ => ⟨S_, .f32⟩
  | .hbm, ⟨21, _⟩ => ⟨S64x128, .f32⟩
  | _, _ => ⟨S64x2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S128x2_S1x128x1x2_1_3 : S128x2.BroadcastsInDim S1x128x1x2 (![1, 3] : Fin 2 → Fin S1x128x1x2.rank)
  bcast_S64x2048x2_S64x1x2048x2_0_2_3 : S64x2048x2.BroadcastsInDim S64x1x2048x2 (![0, 2, 3] : Fin 3 → Fin S64x1x2048x2.rank)
  bcast_S1x128x1x2_S64x128x2048x2_0_1_2_3 : S1x128x1x2.BroadcastsInDim S64x128x2048x2 (![0, 1, 2, 3] : Fin 4 → Fin S64x128x2048x2.rank)
  bcast_S64x1x2048x2_S64x128x2048x2_0_1_2_3 : S64x1x2048x2.BroadcastsInDim S64x128x2048x2 (![0, 1, 2, 3] : Fin 4 → Fin S64x128x2048x2.rank)
  reducesTo_S64x128x2048x2_S64x128x2048_d3 : S64x128x2048x2.ReducesTo [3] S64x128x2048
  h_S_ : 0 < S_.numel
  bcast_S64x2048_S64x1x2048_0_2 : S64x2048.BroadcastsInDim S64x1x2048 (![0, 2] : Fin 2 → Fin S64x1x2048.rank)
  bcast_S64x1x2048_S64x128x2048_0_1_2 : S64x1x2048.BroadcastsInDim S64x128x2048 (![0, 1, 2] : Fin 3 → Fin S64x128x2048.rank)
  reducesTo_S64x128x2048_S64x128_d2 : S64x128x2048.ReducesTo [2] S64x128

variable [Facts₀]

class Facts : Prop extends Facts₀ where

variable [Facts]
-- ==== Proof.Pieces.lean ====
/-
  What one grid point of the pooling kernel leaves behind, case by case, as a term of the point's seven input blocks
  and of what the accumulator held before.  The body computes, over a block of 32 rows and 256 points, the masked
  radial weights exp(-(s0 (c0 - d0)^2 + s1 (c1 - d1)^2)) * mask for each of the 128 centers, sums them over the 256
  points and adds the sums into a [32, 128] accumulator.  At the first block of a row of blocks the accumulator is
  first set to zero; at the last block the accumulator is copied to the output block.  So in every case the
  accumulator ends at "previous contents + this block's sums" (with "previous contents" the zero array in the first
  case), and in the last case the output block holds the same array.
-/
import proofs.«143014_j2362232012851_1_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value

variable {F : FTy → Type} [FloatOps F]

/-- The offsets of a whole-block access. -/
theorem hz : (![0, 0] : Fin 2 → Nat) = fun _ => 0 := funext fun a => by fin_cases a <;> rfl

/-- The accumulator step: previous contents plus the block's 128 × 32 sums over its 256 points. -/
abbrev step (x0 x1 x2 : Vec F S32x256 .f32) (x3 x4 x5 x6 : Vec F S1x128 .f32) (acc : Vec F S32x128 .f32) : Vec F S32x128 .f32 :=
  k0_pay1 (k0_pay3 x0 x1 x3 x4 x5 x6) (k0_pay4 x2) acc

/-- First block of a row of blocks: the accumulator is zeroed, then stepped. -/
theorem soutA_eq (c : Dev nD) (i : grid0.Coords) (arg2 : Memref sig .tc .vmem S32x256 .f32) (harg2 : arg2.IsWhole) (arg3 : Memref sig .tc .vmem S32x256 .f32) (harg3 : arg3.IsWhole) (arg4 : Memref sig .tc .vmem S32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S32x128 .f32) (harg9 : arg9.IsWhole) (arg10 : Memref sig .tc .vmem S32x128 .f32) (harg10 : arg10.IsWhole) (hc0 : cond0_0 i) (hc1 : ¬cond0_1 i) (x0 x1 x2 : Vec F S32x256 .f32) (x3 x4 x5 x6 : Vec F S1x128 .f32) :
    sout0_A_0 c i arg2 harg2 arg3 harg3 arg4 harg4 arg5 harg5 arg6 harg6 arg7 harg7 arg8 harg8 arg9 harg9 arg10 harg10 hc0 hc1 x0 x1 x2 x3 x4 x5 x6 = step x0 x1 x2 x3 x4 x5 x6 (k0_pay2 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  try sl_unfold_words
  rw [View.canon_cons_unit_zero (S := S32x128) hz]
  simp only [View.readAt_eq_ld, harg2.read_unread, harg3.read_unread, harg4.read_unread, harg5.read_unread, harg6.read_unread, harg7.read_unread, harg8.read_unread, harg10.read_unread, View.ld_unit_zero (S := S32x256) hz, View.ld_unit_zero (S := S1x128) hz, View.ld_unit_zero (S := S32x128) hz, View.readCov_unit_zero (S := S32x128) _ hz]

/-- A middle block: the accumulator is stepped from what the block before left. -/
theorem soutB_eq (c : Dev nD) (i : grid0.Coords) (arg2 : Memref sig .tc .vmem S32x256 .f32) (harg2 : arg2.IsWhole) (arg3 : Memref sig .tc .vmem S32x256 .f32) (harg3 : arg3.IsWhole) (arg4 : Memref sig .tc .vmem S32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S32x128 .f32) (harg9 : arg9.IsWhole) (arg10 : Memref sig .tc .vmem S32x128 .f32) (harg10 : arg10.IsWhole) (hc0 : ¬cond0_0 i) (hc1 : ¬cond0_1 i) (x0 x1 x2 : Vec F S32x256 .f32) (x3 x4 x5 x6 : Vec F S1x128 .f32) (xs0 : Vec F S32x128 .f32) :
    sout0_B_0 c i arg2 harg2 arg3 harg3 arg4 harg4 arg5 harg5 arg6 harg6 arg7 harg7 arg8 harg8 arg9 harg9 arg10 harg10 hc0 hc1 x0 x1 x2 x3 x4 x5 x6 xs0 = step x0 x1 x2 x3 x4 x5 x6 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  try sl_unfold_words
  rw [View.canon_unit_zero hz]
  simp only [View.readAt_eq_ld, harg2.read_unread, harg3.read_unread, harg4.read_unread, harg5.read_unread, harg6.read_unread, harg7.read_unread, harg8.read_unread, harg10.read_unread, View.ld_unit_zero (S := S32x256) hz, View.ld_unit_zero (S := S1x128) hz, View.ld_unit_zero (S := S32x128) hz, View.readCov_unit_zero (S := S32x128) _ hz]

/-- The last block: the accumulator is stepped the same way … -/
theorem soutC_eq (c : Dev nD) (i : grid0.Coords) (arg2 : Memref sig .tc .vmem S32x256 .f32) (harg2 : arg2.IsWhole) (arg3 : Memref sig .tc .vmem S32x256 .f32) (harg3 : arg3.IsWhole) (arg4 : Memref sig .tc .vmem S32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S32x128 .f32) (harg9 : arg9.IsWhole) (arg10 : Memref sig .tc .vmem S32x128 .f32) (harg10 : arg10.IsWhole) (hc0 : ¬cond0_0 i) (hc1 : cond0_1 i) (x0 x1 x2 : Vec F S32x256 .f32) (x3 x4 x5 x6 : Vec F S1x128 .f32) (xs0 : Vec F S32x128 .f32) :
    sout0_C_0 c i arg2 harg2 arg3 harg3 arg4 harg4 arg5 harg5 arg6 harg6 arg7 harg7 arg8 harg8 arg9 harg9 arg10 harg10 hc0 hc1 x0 x1 x2 x3 x4 x5 x6 xs0 = step x0 x1 x2 x3 x4 x5 x6 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  try sl_unfold_words
  rw [View.canon_unit_zero hz]
  simp only [View.readAt_eq_ld, harg2.read_unread, harg3.read_unread, harg4.read_unread, harg5.read_unread, harg6.read_unread, harg7.read_unread, harg8.read_unread, harg10.read_unread, View.ld_unit_zero (S := S32x256) hz, View.ld_unit_zero (S := S1x128) hz, View.ld_unit_zero (S := S32x128) hz, View.readCov_unit_zero (S := S32x128) _ hz]

/-- … and the output block receives the stepped accumulator. -/
theorem outC_eq (c : Dev nD) (i : grid0.Coords) (arg2 : Memref sig .tc .vmem S32x256 .f32) (harg2 : arg2.IsWhole) (arg3 : Memref sig .tc .vmem S32x256 .f32) (harg3 : arg3.IsWhole) (arg4 : Memref sig .tc .vmem S32x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S32x128 .f32) (harg9 : arg9.IsWhole) (arg10 : Memref sig .tc .vmem S32x128 .f32) (harg10 : arg10.IsWhole) (hc0 : ¬cond0_0 i) (hc1 : cond0_1 i) (x0 x1 x2 : Vec F S32x256 .f32) (x3 x4 x5 x6 : Vec F S1x128 .f32) (xs0 : Vec F S32x128 .f32) :
    out0_C_7 c i arg2 harg2 arg3 harg3 arg4 harg4 arg5 harg5 arg6 harg6 arg7 harg7 arg8 harg8 arg9 harg9 arg10 harg10 hc0 hc1 x0 x1 x2 x3 x4 x5 x6 xs0 = step x0 x1 x2 x3 x4 x5 x6 xs0 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  try sl_unfold_words
  rw [View.canon_unit_zero hz]
  simp only [View.readAt_eq_ld, harg2.read_unread, harg3.read_unread, harg4.read_unread, harg5.read_unread, harg6.read_unread, harg7.read_unread, harg8.read_unread, harg10.read_unread, View.ld_unit_zero (S := S32x256) hz, View.ld_unit_zero (S := S1x128) hz, View.ld_unit_zero (S := S32x128) hz, View.readCov_unit_zero (S := S32x128) _ hz]

end Cert.KernelIdeal.Hand
end
-- ==== Proof.Spec.lean ====
/-
  The pooled radial-basis layer as one function of the four argument arrays, on the extended reals.
  For a batch row b, a center n and a point p the masked weight is
      exp (0 - (S[n,0] (C[n,0] - D[b,p,0]) (C[n,0] - D[b,p,0]) + S[n,1] (C[n,1] - D[b,p,1]) (C[n,1] - D[b,p,1]))) * M[b,p],
  and the result at (b, n) is the sum of the weights over the 2048 points.  Both programs compute this array: the
  reference in one sum over all points, the kernel in eight consecutive runs of 256 points added into an accumulator
  that starts at zero.  Addition on the extended reals is commutative and associative, so the two groupings agree.
-/
import Idealize.ShloMosaic.PureOps.Ideal
import Idealize.ShloMosaic.Lib.ValueIdx
import Mathlib.Algebra.BigOperators.Fin
import Mathlib.Algebra.BigOperators.Intervals

noncomputable section

open Idealize.ShloMosaic Idealize.ShloMosaic.ValueIdx

namespace Cert.Spec

/-- One point's masked radial weight for one center: center (cx, cy), sharpness (sx, sy), point (dx, dy), mask mk. -/
def weight (cx cy sx sy dx dy mk : EReal) : EReal :=
  Ideal.exp (0 - (sx * (cx - dx) * (cx - dx) + sy * (cy - dy) * (cy - dy))) * mk

/-- The weight of point p of batch row b for center n, from the argument arrays. -/
def weightAt (D : (⟨3, ![64, 2048, 2]⟩ : Shape).Idx → EReal) (M : (⟨2, ![64, 2048]⟩ : Shape).Idx → EReal)
    (C S : (⟨2, ![128, 2]⟩ : Shape).Idx → EReal) (b : Fin 64) (n : Fin 128) (p : Fin 2048) : EReal :=
  weight (C (ix2 n (0 : Fin 2))) (C (ix2 n (1 : Fin 2))) (S (ix2 n (0 : Fin 2))) (S (ix2 n (1 : Fin 2)))
    (D (ix3 b p (0 : Fin 2))) (D (ix3 b p (1 : Fin 2))) (M (ix2 b p))

/-- The pooled array: at (b, n) the weights summed over all 2048 points. -/
def pooled (D : (⟨3, ![64, 2048, 2]⟩ : Shape).Idx → EReal) (M : (⟨2, ![64, 2048]⟩ : Shape).Idx → EReal)
    (C S : (⟨2, ![128, 2]⟩ : Shape).Idx → EReal) : (⟨2, ![64, 128]⟩ : Shape).Idx → EReal :=
  fun j => ∑ p : Fin 2048, weightAt D M C S (j 0) (j 1) p

/-- A sum over 2048 points is the sum over eight consecutive runs of 256 points, in an additive commutative monoid. -/
theorem sum_runs {β : Type*} [AddCommMonoid β] (f : ℕ → β) :
    ∑ p : Fin 2048, f p.val = ∑ s ∈ Finset.range 8, ∑ q : Fin 256, f (256 * s + q.val) := by
  have h : ∀ k : ℕ, ∑ p ∈ Finset.range (256 * k), f p = ∑ s ∈ Finset.range k, ∑ q : Fin 256, f (256 * s + q.val) := by
    intro k
    induction k with
    | zero => simp
    | succ k ih =>
      rw [Finset.sum_range_succ, ← ih, Nat.mul_succ, Finset.sum_range_add, Fin.sum_univ_eq_sum_range (fun q => f (256 * k + q)) 256]
  rw [Fin.sum_univ_eq_sum_range f 2048]
  exact h 8

/-- The weight by the point's natural number, zero past the last point. -/
def weightN (D : (⟨3, ![64, 2048, 2]⟩ : Shape).Idx → EReal) (M : (⟨2, ![64, 2048]⟩ : Shape).Idx → EReal)
    (C S : (⟨2, ![128, 2]⟩ : Shape).Idx → EReal) (b : Fin 64) (n : Fin 128) (p : ℕ) : EReal :=
  if h : p < 2048 then weightAt D M C S b n ⟨p, h⟩ else 0

/-- The pooled entry as eight consecutive runs of 256 points. -/
theorem pooled_runs (D : (⟨3, ![64, 2048, 2]⟩ : Shape).Idx → EReal) (M : (⟨2, ![64, 2048]⟩ : Shape).Idx → EReal)
    (C S : (⟨2, ![128, 2]⟩ : Shape).Idx → EReal) (b : Fin 64) (n : Fin 128) :
    pooled D M C S (ix2 b n) = ∑ s ∈ Finset.range 8, ∑ q : Fin 256, weightN D M C S b n (256 * s + q.val) := by
  rw [← sum_runs (weightN D M C S b n)]
  show ∑ p : Fin 2048, weightAt D M C S b n p = _
  exact Finset.sum_congr rfl fun p _ => by unfold weightN; rw [dif_pos p.isLt]

end Cert.Spec
end
-- ==== Proof.StepValue.lean ====
/-
  The accumulator step of the pooling kernel read at an index, on the extended reals.  For a row r of the block, a
  center n and a point q of the block, the body's weight is
      exp (0 - (s0[n] (c0[n] - d0[r,q]) (c0[n] - d0[r,q]) + s1[n] (c1[n] - d1[r,q]) (c1[n] - d1[r,q]))) * mask[r,q],
  the center rows [1,128] being spread along rows and points and the point blocks [32,256] along centers; the step
  adds, at (r, n), the sum of these weights over the block's 256 points to what the accumulator held.
-/
import proofs.«143014_j2362232012851_1_alg».proof.Proof.Gen.KernelIdeal.Skeleton
import proofs.«143014_j2362232012851_1_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Hand

open Cert.KernelIdeal Cert.KernelIdeal.Gen

/-- A [1,128] row viewed [1,128,1] and spread to [32,128,256] reads its entry n at (r, n, q). -/
theorem centerSpread_apply {α : Type} (v : S1x128.Idx → α) (r : Fin 32) (n : Fin 128) (q : Fin 256) :
    broadcastTo S32x128x256 (shapeCast S1x128x1 v shapeCasts_S1x128_S1x128x1) broadcasts_S1x128x1_S32x128x256 (ix3 r n q)
      = v (ix2 (0 : Fin 1) n) := by
  refine (broadcastTo_apply _ broadcasts_S1x128x1_S32x128x256 (ix3 r n q) (ix3 (0 : Fin 1) n (0 : Fin 1)) (fun a => ?_)).trans ?_
  · match a with
    | ⟨0, _⟩ => rfl
    | ⟨1, _⟩ => rfl
    | ⟨2, _⟩ => rfl
  · refine shapeCast_apply v shapeCasts_S1x128_S1x128x1 _ _ ?_
    rw [Shape.rowMajor_val_two, Shape.rowMajor_val_three]
    show (0 : Nat) * 128 + n.val = ((0 : Nat) * 128 + n.val) * 1 + 0
    omega

/-- A [32,256] block viewed [32,1,256] and spread to [32,128,256] reads its entry (r, q) at (r, n, q). -/
theorem pointSpread_apply {α : Type} (v : S32x256.Idx → α) (r : Fin 32) (n : Fin 128) (q : Fin 256) :
    broadcastTo S32x128x256 (shapeCast S32x1x256 v shapeCasts_S32x256_S32x1x256) broadcasts_S32x1x256_S32x128x256 (ix3 r n q)
      = v (ix2 r q) := by
  refine (broadcastTo_apply _ broadcasts_S32x1x256_S32x128x256 (ix3 r n q) (ix3 r (0 : Fin 1) q) (fun a => ?_)).trans ?_
  · match a with
    | ⟨0, _⟩ => rfl
    | ⟨1, _⟩ => rfl
    | ⟨2, _⟩ => rfl
  · refine shapeCast_apply v shapeCasts_S32x256_S32x1x256 _ _ ?_
    rw [Shape.rowMajor_val_two, Shape.rowMajor_val_three]
    show r.val * 256 + q.val = (r.val * 1 + 0) * 256 + q.val
    omega

/-- The exponential factor at (r, n, q). -/
theorem expFactor_apply (x0 x1 : Vec Ideal S32x256 .f32) (x3 x4 x5 x6 : Vec Ideal S1x128 .f32)
    (r : Fin 32) (n : Fin 128) (q : Fin 256) :
    k0_pay3 (F := Ideal) x0 x1 x3 x4 x5 x6 (ix3 r n q)
      = Ideal.exp (0 - (x5 (ix2 (0 : Fin 1) n) * (x3 (ix2 (0 : Fin 1) n) - x0 (ix2 r q)) * (x3 (ix2 (0 : Fin 1) n) - x0 (ix2 r q))
          + x6 (ix2 (0 : Fin 1) n) * (x4 (ix2 (0 : Fin 1) n) - x1 (ix2 r q)) * (x4 (ix2 (0 : Fin 1) n) - x1 (ix2 r q)))) := by
  unfold k0_pay3
  simp only [shapeCast_self]
  simp only [exp, subf, addf, mulf, broadcast, centerSpread_apply, pointSpread_apply, Ideal.exp_def, Ideal.subf_def,
    Ideal.addf_def, Ideal.mulf_def, Scalar.ofBits, Ideal.ofBits_def, Ideal.ofBits_zero_f32]

/-- The mask factor at (r, n, q). -/
theorem maskFactor_apply (x2 : Vec Ideal S32x256 .f32) (r : Fin 32) (n : Fin 128) (q : Fin 256) :
    k0_pay4 (F := Ideal) x2 (ix3 r n q) = x2 (ix2 r q) := by
  unfold k0_pay4
  exact pointSpread_apply x2 r n q

/-- The inserted index of the reduction over the points. -/
theorem lift_points (r : Fin 32) (n : Fin 128) (q : Fin 256) :
    reduces_S32x128x256_S32x128.lift (ix2 r n) q = ix3 r n q :=
  funext fun a => Fin.ext (by match a with | ⟨0, _⟩ => rfl | ⟨1, _⟩ => rfl | ⟨2, _⟩ => rfl)

/-- The body's sum over the points axis, at (r, n): the sum of the operand over the block's 256 points. -/
theorem pointSum_apply (src : FVec Ideal S32x128x256 .f32) (hφ : FKind.Formats .f32)
    (hacc : (0x00000000#32 : BitVec 32) = 0x00000000#32) (r : Fin 32) (n : Fin 128) :
    multiReduction (F := Ideal) .add [2] S32x128 src 0x00000000#32 reduces_S32x128x256_S32x128 hφ hacc (ix2 r n)
      = ∑ q : Fin 256, src (ix3 r n q) := by
  refine (Ideal.multiReduction_add_single src 0x00000000#32 reduces_S32x128x256_S32x128 hφ hacc (ix2 r n)).trans ?_
  exact Finset.sum_congr rfl fun q _ => congrArg src (lift_points r n q)

/-- The step at (r, n): the accumulator's entry plus the sum over the block's points of the two factors' product. -/
theorem step_apply (v37 v39 : FVec Ideal S32x128x256 .f32) (v42 : Vec Ideal S32x128 .f32) (r : Fin 32) (n : Fin 128) :
    k0_pay1 (F := Ideal) v37 v39 v42 (ix2 r n) = v42 (ix2 r n) + ∑ q : Fin 256, v37 (ix3 r n q) * v39 (ix3 r n q) := by
  unfold k0_pay1
  simp only [shapeCast_self]
  exact congrArg (v42 (ix2 r n) + ·) (pointSum_apply (mulf v37 v39) (.inl rfl) rfl r n)

/-- The reset value is zero everywhere. -/
theorem reset_apply (j : S32x128.Idx) : k0_pay2 (F := Ideal) j = 0 := by
  unfold k0_pay2
  simp only [shapeCast_self]
  show Ideal.ofBits .f32 0x00000000#32 = 0
  exact Ideal.ofBits_zero_f32

/-- So one step over the input blocks adds, at (r, n), the block's weights summed over its points. -/
theorem blockStep_apply (x0 x1 x2 : Vec Ideal S32x256 .f32) (x3 x4 x5 x6 : Vec Ideal S1x128 .f32) (acc : Vec Ideal S32x128 .f32)
    (r : Fin 32) (n : Fin 128) :
    k0_pay1 (F := Ideal) (k0_pay3 x0 x1 x3 x4 x5 x6) (k0_pay4 x2) acc (ix2 r n)
      = acc (ix2 r n) + ∑ q : Fin 256, Cert.Spec.weight (x3 (ix2 (0 : Fin 1) n)) (x4 (ix2 (0 : Fin 1) n)) (x5 (ix2 (0 : Fin 1) n)) (x6 (ix2 (0 : Fin 1) n))
          (x0 (ix2 r q)) (x1 (ix2 r q)) (x2 (ix2 r q)) := by
  rw [step_apply]
  refine congrArg (acc (ix2 r n) + ·) (Finset.sum_congr rfl fun q _ => ?_)
  rw [expFactor_apply, maskFactor_apply]
  rfl

end Cert.KernelIdeal.Hand
end
-- ==== Proof.Blocks.lean ====
/-
  The kernel's seven input blocks read at an index from the four argument arrays.  Grid point t = 8 i + j takes rows
  32 i … 32 i + 31 and points 256 j … 256 j + 255 of the two coordinate planes of the diagrams and of the masks; the
  coordinate planes are the diagrams sliced at the last axis and reshaped to [64, 2048], and the four [1, 128] rows
  are the two columns of the centers and of the sharpness, sliced and reshaped twice, the same at every grid point.
-/
import proofs.«143014_j2362232012851_1_alg».proof.Proof.Gen.KernelIdeal.Value
import Idealize.ShloMosaic.Lib.Pipeline.Value
import Idealize.ShloMosaic.Lib.Tactic
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value

variable {F : FTy → Type} [FloatOps F]

open Idealize.ShloMosaic.ValueIdx

variable (m : (ℓ : Loc nD τ sig) → Buf (Elt F) ℓ)

/-- The array row under row r of grid point t's blocks. -/
def rowOf (t : Fin cfg0.N) (r : Fin 32) : Fin 64 :=
  ⟨32 * (t.val / 8) + r.val, by have := lt_of_lt_of_eq t.isLt (show cfg0.N = 16 from N_0); omega⟩

/-- The array point under point q of grid point t's blocks. -/
def colOf (t : Fin cfg0.N) (q : Fin 256) : Fin 2048 :=
  ⟨256 * (t.val % 8) + q.val, by omega⟩

/-! ## The arrays the region finds, as terms of the arguments -/

/-- A coordinate plane of the diagrams: the slice at last coordinate d, reshaped to [64, 2048], reads (b, p, d). -/
theorem plane_apply {α : Type} (X : S64x2048x2.Idx → α) (d : Fin 2) (hs : S64x2048x2.Slices ![0, 0, d.val] S64x2048x1)
    (b : Fin 64) (p : Fin 2048) :
    shapeCast S64x2048 (extractStridedSlice S64x2048x1 ![0, 0, d.val] X hs) shapeCasts_S64x2048x1_S64x2048 (ix2 b p)
      = X (ix3 b p d) := by
  refine (shapeCast_apply _ shapeCasts_S64x2048x1_S64x2048 (ix2 b p) (ix3 b p (0 : Fin 1)) ?_).trans
    (extractStridedSlice_apply _ X hs (ix3 b p (0 : Fin 1)) (ix3 b p d) fun a => ?_)
  · rw [Shape.rowMajor_val_three, Shape.rowMajor_val_two]
    show (b.val * 2048 + p.val) * 1 + 0 = b.val * 2048 + p.val
    omega
  · match a with
    | ⟨0, _⟩ => show b.val = 0 + b.val; omega
    | ⟨1, _⟩ => show p.val = 0 + p.val; omega
    | ⟨2, _⟩ => show d.val = d.val + 0; omega

/-- A column of a [128, 2] table: the slice at column d, reshaped to [128] and then to [1, 128], reads (n, d). -/
theorem column_apply {α : Type} (X : S128x2.Idx → α) (d : Fin 2) (hs : S128x2.Slices ![0, d.val] S128x1) (n : Fin 128) :
    shapeCast S1x128 (shapeCast S128 (extractStridedSlice S128x1 ![0, d.val] X hs) shapeCasts_S128x1_S128) shapeCasts_S128_S1x128
        (ix2 (0 : Fin 1) n)
      = X (ix2 n d) := by
  refine (shapeCast_apply _ shapeCasts_S128_S1x128 (ix2 (0 : Fin 1) n) (ix1 n) ?_).trans
    ((shapeCast_apply _ shapeCasts_S128x1_S128 (ix1 n) (ix2 n (0 : Fin 1)) ?_).trans
      (extractStridedSlice_apply _ X hs (ix2 n (0 : Fin 1)) (ix2 n d) fun a => ?_))
  · rw [Shape.rowMajor_val_one, Shape.rowMajor_val_two]
    show n.val = 0 * 128 + n.val
    omega
  · rw [Shape.rowMajor_val_two, Shape.rowMajor_val_one]
    show n.val * 1 + 0 = n.val
    omega
  · match a with
    | ⟨0, _⟩ => show n.val = 0 + n.val; omega
    | ⟨1, _⟩ => show d.val = d.val + 0; omega

theorem V_d0 (c : Dev nD) : (V m c main_v1 : S64x2048.Idx → Elt F .f32)
    = shapeCast S64x2048 (extractStridedSlice S64x2048x1 ![0, 0, 0] (m ((c : Thread nD τ).loc main_arg0)) slices_S64x2048x2_S64x2048x1_0_0_0) shapeCasts_S64x2048x1_S64x2048 := by
  dsimp only [V, hostOps0]; after_results; rfl

theorem V_d1 (c : Dev nD) : (V m c main_v3 : S64x2048.Idx → Elt F .f32)
    = shapeCast S64x2048 (extractStridedSlice S64x2048x1 ![0, 0, 1] (m ((c : Thread nD τ).loc main_arg0)) slices_S64x2048x2_S64x2048x1_0_0_1) shapeCasts_S64x2048x1_S64x2048 := by
  dsimp only [V, hostOps0]; after_results; rfl

theorem V_c0 (c : Dev nD) : (V m c main_v6 : S1x128.Idx → Elt F .f32)
    = shapeCast S1x128 (shapeCast S128 (extractStridedSlice S128x1 ![0, 0] (m ((c : Thread nD τ).loc main_arg2)) slices_S128x2_S128x1_0_0) shapeCasts_S128x1_S128) shapeCasts_S128_S1x128 := by
  dsimp only [V, hostOps0]; after_results; rfl

theorem V_c1 (c : Dev nD) : (V m c main_v9 : S1x128.Idx → Elt F .f32)
    = shapeCast S1x128 (shapeCast S128 (extractStridedSlice S128x1 ![0, 1] (m ((c : Thread nD τ).loc main_arg2)) slices_S128x2_S128x1_0_1) shapeCasts_S128x1_S128) shapeCasts_S128_S1x128 := by
  dsimp only [V, hostOps0]; after_results; rfl

theorem V_s0 (c : Dev nD) : (V m c main_v12 : S1x128.Idx → Elt F .f32)
    = shapeCast S1x128 (shapeCast S128 (extractStridedSlice S128x1 ![0, 0] (m ((c : Thread nD τ).loc main_arg3)) slices_S128x2_S128x1_0_0) shapeCasts_S128x1_S128) shapeCasts_S128_S1x128 := by
  dsimp only [V, hostOps0]; after_results; rfl

theorem V_s1 (c : Dev nD) : (V m c main_v15 : S1x128.Idx → Elt F .f32)
    = shapeCast S1x128 (shapeCast S128 (extractStridedSlice S128x1 ![0, 1] (m ((c : Thread nD τ).loc main_arg3)) slices_S128x2_S128x1_0_1) shapeCasts_S128x1_S128) shapeCasts_S128_S1x128 := by
  dsimp only [V, hostOps0]; after_results; rfl

/-! ## Each window's block at a point, read from the array it stages -/

theorem blk0_apply (c : Dev nD) (t : Fin cfg0.N) (r : Fin 32) (q : Fin 256) :
    (iblk m c 0 t : Vec F S32x256 .f32) (ix2 r q) = (V m c main_v1 : S64x2048.Idx → Elt F .f32) (ix2 (rowOf t r) (colOf t q)) := by
  have hi : win0_0.index t 0 = t.val / 8 ∧ win0_0.index t 1 = t.val % 8 :=
    (by decide +kernel : ∀ t : Fin grid0.N, win0_0.index t 0 = t.val / 8 ∧ win0_0.index t 1 = t.val % 8) t
  unfold iblk
  rw [View.read_apply]
  show V m c main_v1 _ = V m c main_v1 _
  congr 1
  funext a
  apply Fin.ext
  match a with
  | ⟨0, _⟩ => show win0_0.index t 0 * 32 + 1 * r.val = 32 * (t.val / 8) + r.val; rw [hi.1]; omega
  | ⟨1, _⟩ => show win0_0.index t 1 * 256 + 1 * q.val = 256 * (t.val % 8) + q.val; rw [hi.2]; omega

theorem blk1_apply (c : Dev nD) (t : Fin cfg0.N) (r : Fin 32) (q : Fin 256) :
    (iblk m c 1 t : Vec F S32x256 .f32) (ix2 r q) = (V m c main_v3 : S64x2048.Idx → Elt F .f32) (ix2 (rowOf t r) (colOf t q)) := by
  have hi : win0_1.index t 0 = t.val / 8 ∧ win0_1.index t 1 = t.val % 8 :=
    (by decide +kernel : ∀ t : Fin grid0.N, win0_1.index t 0 = t.val / 8 ∧ win0_1.index t 1 = t.val % 8) t
  unfold iblk
  rw [View.read_apply]
  show V m c main_v3 _ = V m c main_v3 _
  congr 1
  funext a
  apply Fin.ext
  match a with
  | ⟨0, _⟩ => show win0_1.index t 0 * 32 + 1 * r.val = 32 * (t.val / 8) + r.val; rw [hi.1]; omega
  | ⟨1, _⟩ => show win0_1.index t 1 * 256 + 1 * q.val = 256 * (t.val % 8) + q.val; rw [hi.2]; omega

theorem blk2_apply (c : Dev nD) (t : Fin cfg0.N) (r : Fin 32) (q : Fin 256) :
    (iblk m c 2 t : Vec F S32x256 .f32) (ix2 r q) = (V m c main_arg1 : S64x2048.Idx → Elt F .f32) (ix2 (rowOf t r) (colOf t q)) := by
  have hi : win0_2.index t 0 = t.val / 8 ∧ win0_2.index t 1 = t.val % 8 :=
    (by decide +kernel : ∀ t : Fin grid0.N, win0_2.index t 0 = t.val / 8 ∧ win0_2.index t 1 = t.val % 8) t
  unfold iblk
  rw [View.read_apply]
  show V m c main_arg1 _ = V m c main_arg1 _
  congr 1
  funext a
  apply Fin.ext
  match a with
  | ⟨0, _⟩ => show win0_2.index t 0 * 32 + 1 * r.val = 32 * (t.val / 8) + r.val; rw [hi.1]; omega
  | ⟨1, _⟩ => show win0_2.index t 1 * 256 + 1 * q.val = 256 * (t.val % 8) + q.val; rw [hi.2]; omega

theorem blk3_apply (c : Dev nD) (t : Fin cfg0.N) (n : Fin 128) :
    (iblk m c 3 t : Vec F S1x128 .f32) (ix2 (0 : Fin 1) n) = (V m c main_v6 : S1x128.Idx → Elt F .f32) (ix2 (0 : Fin 1) n) := by
  have hi : win0_3.index t 0 = 0 ∧ win0_3.index t 1 = 0 :=
    (by decide +kernel : ∀ t : Fin grid0.N, win0_3.index t 0 = 0 ∧ win0_3.index t 1 = 0) t
  unfold iblk
  rw [View.read_apply]
  show V m c main_v6 _ = V m c main_v6 _
  congr 1
  funext a
  apply Fin.ext
  match a with
  | ⟨0, _⟩ => show win0_3.index t 0 * 1 + 1 * 0 = 0; rw [hi.1]
  | ⟨1, _⟩ => show win0_3.index t 1 * 128 + 1 * n.val = n.val; rw [hi.2]; omega

theorem blk4_apply (c : Dev nD) (t : Fin cfg0.N) (n : Fin 128) :
    (iblk m c 4 t : Vec F S1x128 .f32) (ix2 (0 : Fin 1) n) = (V m c main_v9 : S1x128.Idx → Elt F .f32) (ix2 (0 : Fin 1) n) := by
  have hi : win0_4.index t 0 = 0 ∧ win0_4.index t 1 = 0 :=
    (by decide +kernel : ∀ t : Fin grid0.N, win0_4.index t 0 = 0 ∧ win0_4.index t 1 = 0) t
  unfold iblk
  rw [View.read_apply]
  show V m c main_v9 _ = V m c main_v9 _
  congr 1
  funext a
  apply Fin.ext
  match a with
  | ⟨0, _⟩ => show win0_4.index t 0 * 1 + 1 * 0 = 0; rw [hi.1]
  | ⟨1, _⟩ => show win0_4.index t 1 * 128 + 1 * n.val = n.val; rw [hi.2]; omega

theorem blk5_apply (c : Dev nD) (t : Fin cfg0.N) (n : Fin 128) :
    (iblk m c 5 t : Vec F S1x128 .f32) (ix2 (0 : Fin 1) n) = (V m c main_v12 : S1x128.Idx → Elt F .f32) (ix2 (0 : Fin 1) n) := by
  have hi : win0_5.index t 0 = 0 ∧ win0_5.index t 1 = 0 :=
    (by decide +kernel : ∀ t : Fin grid0.N, win0_5.index t 0 = 0 ∧ win0_5.index t 1 = 0) t
  unfold iblk
  rw [View.read_apply]
  show V m c main_v12 _ = V m c main_v12 _
  congr 1
  funext a
  apply Fin.ext
  match a with
  | ⟨0, _⟩ => show win0_5.index t 0 * 1 + 1 * 0 = 0; rw [hi.1]
  | ⟨1, _⟩ => show win0_5.index t 1 * 128 + 1 * n.val = n.val; rw [hi.2]; omega

theorem blk6_apply (c : Dev nD) (t : Fin cfg0.N) (n : Fin 128) :
    (iblk m c 6 t : Vec F S1x128 .f32) (ix2 (0 : Fin 1) n) = (V m c main_v15 : S1x128.Idx → Elt F .f32) (ix2 (0 : Fin 1) n) := by
  have hi : win0_6.index t 0 = 0 ∧ win0_6.index t 1 = 0 :=
    (by decide +kernel : ∀ t : Fin grid0.N, win0_6.index t 0 = 0 ∧ win0_6.index t 1 = 0) t
  unfold iblk
  rw [View.read_apply]
  show V m c main_v15 _ = V m c main_v15 _
  congr 1
  funext a
  apply Fin.ext
  match a with
  | ⟨0, _⟩ => show win0_6.index t 0 * 1 + 1 * 0 = 0; rw [hi.1]
  | ⟨1, _⟩ => show win0_6.index t 1 * 128 + 1 * n.val = n.val; rw [hi.2]; omega

/-! ## … and from the arguments -/

theorem d0_apply (c : Dev nD) (t : Fin cfg0.N) (r : Fin 32) (q : Fin 256) :
    (iblk m c 0 t : Vec F S32x256 .f32) (ix2 r q)
      = (m ((c : Thread nD τ).loc main_arg0) : S64x2048x2.Idx → Elt F .f32) (ix3 (rowOf t r) (colOf t q) (0 : Fin 2)) := by
  rw [blk0_apply, V_d0]; exact plane_apply _ (0 : Fin 2) _ _ _

theorem d1_apply (c : Dev nD) (t : Fin cfg0.N) (r : Fin 32) (q : Fin 256) :
    (iblk m c 1 t : Vec F S32x256 .f32) (ix2 r q)
      = (m ((c : Thread nD τ).loc main_arg0) : S64x2048x2.Idx → Elt F .f32) (ix3 (rowOf t r) (colOf t q) (1 : Fin 2)) := by
  rw [blk1_apply, V_d1]; exact plane_apply _ (1 : Fin 2) _ _ _

theorem mask_apply (c : Dev nD) (t : Fin cfg0.N) (r : Fin 32) (q : Fin 256) :
    (iblk m c 2 t : Vec F S32x256 .f32) (ix2 r q)
      = (m ((c : Thread nD τ).loc main_arg1) : S64x2048.Idx → Elt F .f32) (ix2 (rowOf t r) (colOf t q)) := by
  rw [blk2_apply, V_main_arg1]

theorem c0_apply (c : Dev nD) (t : Fin cfg0.N) (n : Fin 128) :
    (iblk m c 3 t : Vec F S1x128 .f32) (ix2 (0 : Fin 1) n)
      = (m ((c : Thread nD τ).loc main_arg2) : S128x2.Idx → Elt F .f32) (ix2 n (0 : Fin 2)) := by
  rw [blk3_apply, V_c0]; exact column_apply _ (0 : Fin 2) _ _

theorem c1_apply (c : Dev nD) (t : Fin cfg0.N) (n : Fin 128) :
    (iblk m c 4 t : Vec F S1x128 .f32) (ix2 (0 : Fin 1) n)
      = (m ((c : Thread nD τ).loc main_arg2) : S128x2.Idx → Elt F .f32) (ix2 n (1 : Fin 2)) := by
  rw [blk4_apply, V_c1]; exact column_apply _ (1 : Fin 2) _ _

theorem s0_apply (c : Dev nD) (t : Fin cfg0.N) (n : Fin 128) :
    (iblk m c 5 t : Vec F S1x128 .f32) (ix2 (0 : Fin 1) n)
      = (m ((c : Thread nD τ).loc main_arg3) : S128x2.Idx → Elt F .f32) (ix2 n (0 : Fin 2)) := by
  rw [blk5_apply, V_s0]; exact column_apply _ (0 : Fin 2) _ _

theorem s1_apply (c : Dev nD) (t : Fin cfg0.N) (n : Fin 128) :
    (iblk m c 6 t : Vec F S1x128 .f32) (ix2 (0 : Fin 1) n)
      = (m ((c : Thread nD τ).loc main_arg3) : S128x2.Idx → Elt F .f32) (ix2 n (1 : Fin 2)) := by
  rw [blk6_apply, V_s1]; exact column_apply _ (1 : Fin 2) _ _

end Cert.KernelIdeal.Hand
end
-- ==== Proof.Accumulate.lean ====
/-
  The accumulator over a row of blocks, on the extended reals.  At grid point t = 8 i + j the step adds, at (r, n), the
  weights of the 256 points 256 j … 256 j + 255 of batch row 32 i + r for center n; at j = 0 the accumulator starts from
  zero.  So after the last block of the row (j = 7) the accumulator — and the output block, which receives a copy —
  holds zero plus the eight runs' sums.
-/
import proofs.«143014_j2362232012851_1_alg».proof.Proof.Pieces
import proofs.«143014_j2362232012851_1_alg».proof.Proof.StepValue
import proofs.«143014_j2362232012851_1_alg».proof.Proof.Blocks

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value

variable (m : (ℓ : Loc nD τ sig) → Buf (Elt Ideal) ℓ)

/-- The four argument arrays on core c. -/
abbrev argD (c : Dev nD) : S64x2048x2.Idx → EReal := m ((c : Thread nD τ).loc main_arg0)
abbrev argM (c : Dev nD) : S64x2048.Idx → EReal := m ((c : Thread nD τ).loc main_arg1)
abbrev argC (c : Dev nD) : S128x2.Idx → EReal := m ((c : Thread nD τ).loc main_arg2)
abbrev argS (c : Dev nD) : S128x2.Idx → EReal := m ((c : Thread nD τ).loc main_arg3)

/-- One step at grid point t, at (r, n): the accumulator's entry plus the weights of the point's 256 points. -/
theorem step_point (c : Dev nD) (t : Fin cfg0.N) (acc : Vec Ideal S32x128 .f32) (r : Fin 32) (n : Fin 128) :
    step (iblk m c 0 t) (iblk m c 1 t) (iblk m c 2 t) (iblk m c 3 t) (iblk m c 4 t) (iblk m c 5 t) (iblk m c 6 t) acc (ix2 r n)
      = acc (ix2 r n) + ∑ q : Fin 256, Cert.Spec.weightAt (argD m c) (argM m c) (argC m c) (argS m c) (rowOf t r) n (colOf t q) := by
  refine (blockStep_apply (iblk m c 0 t) (iblk m c 1 t) (iblk m c 2 t) (iblk m c 3 t) (iblk m c 4 t) (iblk m c 5 t) (iblk m c 6 t) acc r n).trans ?_
  refine congrArg (acc (ix2 r n) + ·) (Finset.sum_congr rfl fun q _ => ?_)
  rw [d0_apply, d1_apply, mask_apply, c0_apply, c1_apply, s0_apply, s1_apply]
  rfl

/-- What grid point t leaves in the accumulator over previous contents acc, at (r, n): at the first block of a row of
    blocks the previous contents do not enter. -/
theorem scAt_apply (c : Dev nD) (t : Fin cfg0.N) (acc : Vec Ideal S32x128 .f32) (r : Fin 32) (n : Fin 128) :
    scAt0_0 m c t.val t.isLt acc (ix2 r n)
      = (if t.val % 8 = 0 then 0 else acc (ix2 r n))
        + ∑ q : Fin 256, Cert.Spec.weightAt (argD m c) (argM m c) (argC m c) (argS m c) (rowOf t r) n (colOf t q) := by
  unfold scAt0_0
  by_cases h0 : t.val % 8 = 0 <;> by_cases h1 : t.val % 8 = 7
  · exfalso; omega
  · rw [dif_pos h0, dif_neg h1, if_pos h0,
      soutA_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)]
    refine (step_point m c t _ r n).trans ?_
    rw [reset_apply]
  · rw [dif_neg h0, dif_pos h1, if_neg h0,
      soutC_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) acc]
    exact step_point m c t acc r n
  · rw [dif_neg h0, dif_neg h1, if_neg h0,
      soutB_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) acc]
    exact step_point m c t acc r n

/-- At the last block of a row of blocks the output block holds what the accumulator holds. -/
theorem out_eq_acc (c : Dev nD) (t : Fin cfg0.N) (h0 : ¬t.val % 8 = 0) (h1 : t.val % 8 = 7) :
    (outsAt0 m c t.val t.isLt).1 = (outsAt0 m c t.val t.isLt).2 := by
  rw [outsAt0_C m c t h0 h1]
  dsimp only
  rw [outC_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2,
    soutC_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2]

/-- Grid point k's addend at an index of the accumulator: its 256 points' weights (zero for a k past the grid, which no
    sum below reaches). -/
def addend (c : Dev nD) (k : ℕ) (j : S32x128.Idx) : EReal :=
  if h : k < cfg0.N then
    ∑ q : Fin 256, Cert.Spec.weightAt (argD m c) (argM m c) (argC m c) (argS m c) (rowOf ⟨k, h⟩ (j 0)) (j 1) (colOf ⟨k, h⟩ q)
  else 0

/-- The accumulator after grid point t: zero plus the addends of the points of t's row of blocks up to t. -/
theorem acc_fold (c : Dev nD) (t : Fin cfg0.N) (j : S32x128.Idx) :
    (outsAt0 m c t.val t.isLt).2 j = 0 + ∑ s ∈ Finset.range (t.val % 8 + 1), addend m c (8 * (t.val / 8) + s) j := by
  rw [soutsAt0_0_eq m c t]
  refine Pipeline.accAt_add_apply (fun n h => scAt0_0 m c n h (VS0_0.read (Elt Ideal) VS0_0.junk)) (scAt0_0 m c)
    (fun _ => 0) (addend m c) (8 * (t.val / 8)) 7 (fun h i => ?_) (fun k h acc i hlt hle => ?_) (t.val % 8) (by omega) _ j
  · obtain ⟨r, n, rfl⟩ : ∃ (r : Fin 32) (n : Fin 128), i = ix2 r n := ⟨i 0, i 1, eq_ix2 i⟩
    refine (scAt_apply m c ⟨8 * (t.val / 8), h⟩ _ r n).trans ?_
    rw [if_pos (show (8 * (t.val / 8)) % 8 = 0 by omega)]
    unfold addend
    rw [dif_pos h]
  · obtain ⟨r, n, rfl⟩ : ∃ (r : Fin 32) (n : Fin 128), i = ix2 r n := ⟨i 0, i 1, eq_ix2 i⟩
    refine (scAt_apply m c ⟨k, h⟩ acc r n).trans ?_
    rw [if_neg (show ¬k % 8 = 0 by omega)]
    unfold addend
    rw [dif_pos h]

/-- The output block after the last block of a row of blocks: the pooled array's entries of its 32 batch rows. -/
theorem out_apply (c : Dev nD) (t : Fin cfg0.N) (h1 : t.val % 8 = 7) (r : Fin 32) (n : Fin 128) :
    (outsAt0 m c t.val t.isLt).1 (ix2 r n)
      = Cert.Spec.pooled (argD m c) (argM m c) (argC m c) (argS m c) (ix2 (rowOf t r) n) := by
  have hN : cfg0.N = 16 := N_0
  have ht : t.val < cfg0.N := t.isLt
  rw [out_eq_acc m c t (by omega) h1, acc_fold, h1, Cert.Spec.pooled_runs, zero_add]
  refine Finset.sum_congr rfl fun s hs => ?_
  have hs' : s < 8 := Finset.mem_range.mp hs
  have hk : 8 * (t.val / 8) + s < cfg0.N := by omega
  unfold addend
  rw [dif_pos hk]
  refine Finset.sum_congr rfl fun q _ => ?_
  have hq : q.val < 256 := q.isLt
  have hp : 256 * s + q.val < 2048 := by omega
  unfold Cert.Spec.weightN
  rw [dif_pos hp]
  have e1 : rowOf ⟨8 * (t.val / 8) + s, hk⟩ r = rowOf t r := Fin.ext (by show 32 * ((8 * (t.val / 8) + s) / 8) + r.val = 32 * (t.val / 8) + r.val; omega)
  have e2 : colOf ⟨8 * (t.val / 8) + s, hk⟩ q = ⟨256 * s + q.val, hp⟩ := Fin.ext (by show 256 * ((8 * (t.val / 8) + s) % 8) + q.val = 256 * s + q.val; omega)
  show Cert.Spec.weightAt (argD m c) (argM m c) (argC m c) (argS m c) (rowOf ⟨8 * (t.val / 8) + s, hk⟩ r) n (colOf ⟨8 * (t.val / 8) + s, hk⟩ q) = _
  rw [e1, e2]

end Cert.KernelIdeal.Hand
end
-- ==== Proof.KernelRun.lean ====
/-
  From blocks to the array.  The output [64, 128] is written back twice, after the last block of each of the two rows
  of blocks: grid point 8 i + 7 writes rows 32 i … 32 i + 31, all 128 centers.  Each write-back is the pooled array
  read through its block, and the two blocks cover the array, so the output ends holding the pooled array of the four
  arguments.
-/
import proofs.«143014_j2362232012851_1_alg».proof.Proof.Accumulate

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value

variable (m : (ℓ : Loc nD τ sig) → Buf (Elt Ideal) ℓ) (ρ : Dev nD → PrngReg)

/-- The output window's block index at grid point t: the row of blocks, and the one block of centers. -/
theorem out_index : ∀ t : Fin cfg0.N, win0_7.index t (0 : Fin 2) = t.val / 8 ∧ win0_7.index t (1 : Fin 2) = 0 :=
  (by decide +kernel : ∀ t : Fin grid0.N, win0_7.index t (0 : Fin 2) = t.val / 8 ∧ win0_7.index t (1 : Fin 2) = 0)

/-- What a flushing point writes back is the pooled array read through the point's block. -/
theorem flushed_eq (c : Dev nD) (t : Fin cfg0.N) (hf : (cfg0.win 7).flush t = true) :
    (dats m 0 c).flushed 7 t
      = ((cfg0.win 7).blk t).view.read (Elt Ideal) (Cert.Spec.pooled (argD m c) (argM m c) (argC m c) (argS m c)) := by
  have h1 : t.val % 8 = 7 := (flush0_7 t).mp hf
  obtain ⟨i0, i1⟩ := out_index t
  rw [flushed7]
  funext y
  show (outsAt0 m c t.val t.isLt).1 y = Cert.Spec.pooled (argD m c) (argM m c) (argC m c) (argS m c) (((cfg0.win 7).blk t).view.emb y)
  obtain ⟨r, n, rfl⟩ : ∃ (r : Fin 32) (n : Fin 128), y = ix2 r n := ⟨y 0, y 1, eq_ix2 y⟩
  rw [out_apply m c t h1 r n]
  refine congrArg (Cert.Spec.pooled (argD m c) (argM m c) (argC m c) (argS m c)) (funext fun a => Fin.ext ?_)
  match a with
  | ⟨0, _⟩ => show 32 * (t.val / 8) + r.val = win0_7.index t (0 : Fin 2) * 32 + 1 * r.val; rw [i0]; omega
  | ⟨1, _⟩ => show n.val = win0_7.index t (1 : Fin 2) * 128 + 1 * n.val; rw [i1]; omega

/-- An index of the output array is in grid point t's block iff each coordinate is in the block's range. -/
theorem mem_out_blk (t : Fin cfg0.N) (i : S64x128.Idx) :
    i ∈ ((cfg0.win 7).blk t).view.set ↔ ∀ a : Fin 2, win0_7.index t a * S32x128.size a ≤ (i a).val ∧ (i a).val < win0_7.index t a * S32x128.size a + S32x128.size a := by
  show i ∈ ((View.whole main_v16).slice (win0_7.rect t)).set ↔ _
  rw [View.set_slice_whole, Rect.mem_set_unit]
  exact Iff.rfl

/-- The output array after the run is the pooled array. -/
theorem final (c : Dev nD) :
    (dats m 0 c).arrAt 7 cfg0.N = Cert.Spec.pooled (argD m c) (argM m c) (argC m c) (argS m c) :=
  (dats m 0 c).arrAt_eq_of_cover 7 (Cert.Spec.pooled (argD m c) (argM m c) (argC m c) (argS m c)) (flushed_eq m c) fun i => by
    have hN : cfg0.N = 16 := N_0
    have hi0 : (i 0).val < 64 := (i 0).isLt
    have hi1 : (i 1).val < 128 := (i 1).isLt
    have hlt : 8 * ((i 0).val / 32) + 7 < cfg0.N := by omega
    obtain ⟨e0, e1⟩ := out_index ⟨8 * ((i 0).val / 32) + 7, hlt⟩
    have e0' : win0_7.index ⟨8 * ((i 0).val / 32) + 7, hlt⟩ (0 : Fin 2) = (i 0).val / 32 := by rw [e0]; show (8 * ((i 0).val / 32) + 7) / 8 = _; omega
    refine ⟨⟨8 * ((i 0).val / 32) + 7, hlt⟩, (flush0_7 _).mpr (by show (8 * ((i 0).val / 32) + 7) % 8 = 7; omega), ?_⟩
    rw [mem_out_blk]
    intro a
    match a with
    | ⟨0, _⟩ => show win0_7.index _ (0 : Fin 2) * 32 ≤ (i 0).val ∧ (i 0).val < win0_7.index _ (0 : Fin 2) * 32 + 32; rw [e0']; omega
    | ⟨1, _⟩ => show win0_7.index _ (1 : Fin 2) * 128 ≤ (i 1).val ∧ (i 1).val < win0_7.index _ (1 : Fin 2) * 128 + 128; rw [e1]; omega

/-- The idealized kernel's run: it ends with the output at the pooled array of its arguments, the arguments unchanged. -/
theorem run : θ_run defs (onTc (τ := τ) (main (F := Ideal))) ⟨m, fun _ => 0, ρ⟩ fun r => ∀ c : Dev nD,
      r.2.mem ((c : Thread nD τ).loc main_v16) = Cert.Spec.pooled (argD m c) (argM m c) (argC m c) (argS m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Hand
end
-- ==== Proof.RefValue.lean ====
/-
  The reference's result is the pooled array.  Read index by index through its eighteen host operations, the
  reference at (b, n) is  0 + Σ_p exp (-(0 + Σ_d S[n,d] (C[n,d] - D[b,p,d]) (C[n,d] - D[b,p,d]))) * M[b,p];  the inner sum
  has two terms, a zero added on the left changes nothing, and the negative of x is 0 - x, so each summand is the
  weight of point p and the whole is the pooled array's entry.
-/
import proofs.«143014_j2362232012851_1_alg».proof.Proof.Gen.ReferenceIdeal.Read
import proofs.«143014_j2362232012851_1_alg».proof.Proof.Spec
import Idealize.ShloMosaic.Lib.ValueIdx

noncomputable section

open Idealize.ShloMosaic Idealize.ShloMosaic.ValueIdx

namespace Cert.ReferenceIdeal.Hand

open Cert.ReferenceIdeal Cert.ReferenceIdeal.Read

/-- The centers' (and the sharpness') entry read under the two spreads, the sum over d and the sum over p. -/
theorem idx_center (b : Fin 64) (n : Fin 128) (p : Fin 2048) (d : Fin 2) :
    idx_main_v0 (idx_main_v2 (idx_main_v9 (idx_main_v15 (ix2 b n) p) d)) = ix2 n d :=
  funext fun a => Fin.ext (by match a with | ⟨0, _⟩ => rfl | ⟨1, _⟩ => rfl)

theorem idx_sharp (b : Fin 64) (n : Fin 128) (p : Fin 2048) (d : Fin 2) :
    idx_main_v5 (idx_main_v6 (idx_main_v9 (idx_main_v15 (ix2 b n) p) d)) = ix2 n d :=
  funext fun a => Fin.ext (by match a with | ⟨0, _⟩ => rfl | ⟨1, _⟩ => rfl)

/-- The diagram's entry read under its two spreads. -/
theorem idx_point (b : Fin 64) (n : Fin 128) (p : Fin 2048) (d : Fin 2) :
    idx_main_v1 (idx_main_v3 (idx_main_v9 (idx_main_v15 (ix2 b n) p) d)) = ix3 b p d :=
  funext fun a => Fin.ext (by match a with | ⟨0, _⟩ => rfl | ⟨1, _⟩ => rfl | ⟨2, _⟩ => rfl)

/-- The mask's entry read under its two spreads. -/
theorem idx_mask (b : Fin 64) (n : Fin 128) (p : Fin 2048) :
    idx_main_v12 (idx_main_v13 (idx_main_v15 (ix2 b n) p)) = ix2 b p :=
  funext fun a => Fin.ext (by match a with | ⟨0, _⟩ => rfl | ⟨1, _⟩ => rfl)

/-- The reference's last stage is the pooled array of its four arguments. -/
theorem result_eq (x0 : (⟨S64x2048x2, .f32⟩ : BufTy).Contents (Elt Ideal)) (x1 : (⟨S64x2048, .f32⟩ : BufTy).Contents (Elt Ideal))
    (x2 x3 : (⟨S128x2, .f32⟩ : BufTy).Contents (Elt Ideal)) :
    val_main_v15 (F := Ideal) x0 x1 x2 x3 = Cert.Spec.pooled x0 x1 x2 x3 := by
  funext j
  obtain ⟨b, n, rfl⟩ : ∃ (b : Fin 64) (n : Fin 128), j = ix2 b n := ⟨j 0, j 1, eq_ix2 j⟩
  rw [val_main_v15_apply]
  simp only [val_main_v14_apply, val_main_v13_apply, val_main_v12_apply, val_main_v11_apply, val_main_v10_apply,
    val_main_v9_apply, val_main_v8_apply, val_main_v7_apply, val_main_v6_apply, val_main_v5_apply, val_main_v4_apply,
    val_main_v3_apply, val_main_v2_apply, val_main_v1_apply, val_main_v0_apply, val_main_cst_apply, val_main_cst_0_apply,
    idx_center, idx_sharp, idx_point, idx_mask, Fin.sum_univ_two,
    Ideal.hostNegf_def, Ideal.negf_def, Ideal.hostUnary_exp_def, Ideal.mulf_def, Ideal.subf_def, Ideal.ofBits_def,
    Ideal.ofBits_zero_f32, zero_add]
  unfold Cert.Spec.pooled Cert.Spec.weightAt Cert.Spec.weight
  simp only [zero_sub]

end Cert.ReferenceIdeal.Hand
end
-- ==== Proof.lean ====
/-
  The pooled radial-basis layer: the tiled kernel against the plain reference, over the extended reals.

  Both programs compute, for a batch row b and a center n, the sum over the 2048 points p of
      exp (-(S[n,0] (C[n,0] - D[b,p,0])^2 + S[n,1] (C[n,1] - D[b,p,1])^2)) * M[b,p].
  The reference does it in one sum.  The kernel walks a 2 × 8 grid of blocks of 32 rows by 256 points; each block adds
  its 256 points' weights into a [32, 128] accumulator that is zeroed at the first block of a row of blocks, and the
  accumulator is written to the output after the eighth.  The two differ only in how the sum over the points is
  grouped (and in zeros added on the left, and in writing -x as 0 - x), and addition on the extended reals is
  commutative and associative: no finiteness of the inputs is needed, and the precondition is never opened.

  The three frames are the generated ones (the reference's is its generated run with the result dropped); the ideal
  pass rewrote nothing, so there is nothing to preserve; the value claim sets the kernel's run (Proof/KernelRun.lean)
  beside the reference's generated run, read index by index (Proof/RefValue.lean), at the one function of the
  arguments both compute (Proof/Spec.lean).
-/
import proofs.«143014_j2362232012851_1_alg».proof.Defs
import proofs.«143014_j2362232012851_1_alg».proof.Proof.Gen.Kernel
import proofs.«143014_j2362232012851_1_alg».proof.Proof.Gen.Kernel.Skeleton
import proofs.«143014_j2362232012851_1_alg».proof.Proof.Gen.Kernel.Launch
import proofs.«143014_j2362232012851_1_alg».proof.Proof.Gen.Kernel.Points
import proofs.«143014_j2362232012851_1_alg».proof.Proof.Gen.Kernel.Frame
import proofs.«143014_j2362232012851_1_alg».proof.Proof.Gen.KernelIdeal
import proofs.«143014_j2362232012851_1_alg».proof.Proof.Gen.KernelIdeal.Skeleton
import proofs.«143014_j2362232012851_1_alg».proof.Proof.Gen.KernelIdeal.Launch
import proofs.«143014_j2362232012851_1_alg».proof.Proof.Gen.KernelIdeal.Points
import proofs.«143014_j2362232012851_1_alg».proof.Proof.Gen.KernelIdeal.Frame
import proofs.«143014_j2362232012851_1_alg».proof.Proof.Gen.ReferenceIdeal
import proofs.«143014_j2362232012851_1_alg».proof.Proof.Gen.Pre_finite_inputs
import proofs.«143014_j2362232012851_1_alg».proof.Proof.Gen.KernelIdeal.Value
import proofs.«143014_j2362232012851_1_alg».proof.Proof.Gen.ReferenceIdeal.Run
import proofs.«143014_j2362232012851_1_alg».proof.Proof.Gen.ReferenceIdeal.Read
import proofs.«143014_j2362232012851_1_alg».proof.Proof.KernelRun
import proofs.«143014_j2362232012851_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the pooled array of their (agreeing) arguments. -/
theorem algebraic : Cert.algebraic_KernelIdeal_ReferenceIdeal := by
  intro m ρ m' ρ' _ hagree
  refine ⟨fun c => Cert.Spec.pooled (Cert.KernelIdeal.Hand.argD m c) (Cert.KernelIdeal.Hand.argM m c)
    (Cert.KernelIdeal.Hand.argC m c) (Cert.KernelIdeal.Hand.argS m c), Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Hand.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
